-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  reducesTo_S_S_d : S_.ReducesTo [] S_

variable [Facts]

def fn {F : FTy → Type} [FloatOps F] (main_arg0 : FVec F S4x2048x4096 .f32) (main_arg1 : IVec S4096x4096 1) (main_arg2 : FVec F S_ .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S_ .f32 := Host.absf main_arg2
  let main_cst_0 : FVec F S_ .f32 := constant S_ .f32 0x7F800000#32
  let main_v5 : IVec S_ 1 := cmpf .olt main_v4 main_cst_0
  let main_c_1 : IVec S_ 1 := constantI S_ 1 1#1
  let main_v6 : IVec S_ 1 := (fun x v => Host.reduce IntOp.andi x v reducesTo_S_S_d h_S_) main_v5 main_c_1
  let main_v7 : IVec S_ 1 := andi main_v3 main_v6
  main_v7
-- ==== Kernel.lean ====
abbrev S4x2048x4096 : Shape := ⟨3, ![4, 2048, 4096]⟩
abbrev S4096x4096 : Shape := ⟨2, ![4096, 4096]⟩
abbrev S_ : Shape := ⟨0, ![]⟩
abbrev S4096 : Shape := ⟨1, ![4096]⟩
abbrev S1x1x4096 : Shape := ⟨3, ![1, 1, 4096]⟩
abbrev S8192x4096 : Shape := ⟨2, ![8192, 4096]⟩
abbrev S1024x1024 : Shape := ⟨2, ![1024, 1024]⟩

abbrev nBuf : Space → Nat
  | .hbm => 22
  | .vmem => 7
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i1⟩
  | .hbm, ⟨2, _⟩ => ⟨S_, .f32⟩
  | .hbm, ⟨3, _⟩ => ⟨S4096, .i32⟩
  | .hbm, ⟨4, _⟩ => ⟨S_, .i32⟩
  | .hbm, ⟨5, _⟩ => ⟨S4096, .i32⟩
  | .hbm, ⟨6, _⟩ => ⟨S4096, .i1⟩
  | .hbm, ⟨7, _⟩ => ⟨S_, .f32⟩
  | .hbm, ⟨8, _⟩ => ⟨S_, .f32⟩
  | .hbm, ⟨9, _⟩ => ⟨S4096, .f32⟩
  | .hbm, ⟨10, _⟩ => ⟨S4096, .f32⟩
  | .hbm, ⟨11, _⟩ => ⟨S4096, .f32⟩
  | .hbm, ⟨12, _⟩ => ⟨S1x1x4096, .f32⟩
  | .hbm, ⟨13, _⟩ => ⟨S4x2048x4096, .f32⟩
  | .hbm, ⟨14, _⟩ => ⟨S4x2048x4096, .f32⟩
  | .hbm, ⟨15, _⟩ => ⟨S8192x4096, .f32⟩
  | .hbm, ⟨16, _⟩ => ⟨S8192x4096, .bf16⟩
  | .hbm, ⟨17, _⟩ => ⟨S4096x4096, .bf16⟩
  | .hbm, ⟨18, _⟩ => ⟨S8192x4096, .f32⟩
  | .hbm, ⟨19, _⟩ => ⟨S8192x4096, .f32⟩
  | .hbm, ⟨20, _⟩ => ⟨S8192x4096, .f32⟩
  | .hbm, ⟨21, _⟩ => ⟨S4x2048x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  bcast_S_S4096 : S_.BroadcastsInDim S4096 (![] : Fin 0 → Fin S4096.rank)
  shapeCasts_S4096_S1x1x4096 : S4096.ShapeCasts S1x1x4096
  bcast_S1x1x4096_S4x2048x4096_0_1_2 : S1x1x4096.BroadcastsInDim S4x2048x4096 (![0, 1, 2] : Fin 3 → Fin S4x2048x4096.rank)
  shapeCasts_S4x2048x4096_S8192x4096 : S4x2048x4096.ShapeCasts S8192x4096
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bcast_S_S8192x4096 : S_.BroadcastsInDim S8192x4096 (![] : Fin 0 → Fin S8192x4096.rank)
  shapeCasts_S8192x4096_S4x2048x4096 : S8192x4096.ShapeCasts S4x2048x4096
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x4096.size a
  hwx0_2 : ∀ i : grid0.Coords, EltTy.bits .f32 = 32 ∨ (Rect.block (s := S8192x4096) S1024x1024.size (cc0_transform_2 i) (hinb0_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v8) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S_ : Shape := ⟨0, ![]⟩
abbrev S4x2048x3277 : Shape := ⟨3, ![4, 2048, 3277]⟩
abbrev S4x2048x819 : Shape := ⟨3, ![4, 2048, 819]⟩

abbrev nBuf : Space → Nat
  | .hbm => 13
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i1⟩
  | .hbm, ⟨2, _⟩ => ⟨S_, .f32⟩
  | .hbm, ⟨3, _⟩ => ⟨S4x2048x3277, .f32⟩
  | .hbm, ⟨4, _⟩ => ⟨S4x2048x819, .f32⟩
  | .hbm, ⟨5, _⟩ => ⟨S_, .f32⟩
  | .hbm, ⟨6, _⟩ => ⟨S4x2048x819, .f32⟩
  | .hbm, ⟨7, _⟩ => ⟨S4x2048x819, .f32⟩
  | .hbm, ⟨8, _⟩ => ⟨S4x2048x4096, .f32⟩
  | .hbm, ⟨9, _⟩ => ⟨S4096x4096, .f32⟩
  | .hbm, ⟨10, _⟩ => ⟨S4x2048x4096, .f32⟩
  | .hbm, ⟨11, _⟩ => ⟨S4x2048x4096, .f32⟩
  | .hbm, ⟨12, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  slices_S4x2048x4096_S4x2048x3277_0_0_0 : S4x2048x4096.Slices ![0, 0, 0] S4x2048x3277
  slices_S4x2048x4096_S4x2048x819_0_0_3277 : S4x2048x4096.Slices ![0, 0, 3277] S4x2048x819
  bcast_S_S4x2048x819 : S_.BroadcastsInDim S4x2048x819 (![] : Fin 0 → Fin S4x2048x819.rank)
  concatenates_S4x2048x3277_S4x2048x819_S4x2048x4096_d2 : Shape.Concatenates [S4x2048x3277, S4x2048x819] S4x2048x4096 2
  bcast_S_S4x2048x4096 : S_.BroadcastsInDim S4x2048x4096 (![] : Fin 0 → Fin S4x2048x4096.rank)
  dot_S4x2048x4096_S4096x4096_S4x2048x4096_2_0_01_1_n_n_wf : DotDims.WF S4x2048x4096 S4096x4096 S4x2048x4096 [2] [0] [0, 1] [1] [] []

variable [Facts₀]

def dot_S4x2048x4096_S4096x4096_S4x2048x4096_2_0_01_1_n_n : DotDims S4x2048x4096 S4096x4096 S4x2048x4096 where
  lhsContracting := [2]
  rhsContracting := [0]
  lhsNonContracting := [0, 1]
  rhsNonContracting := [1]
  lhsBatch := []
  rhsBatch := []
  wf := dot_S4x2048x4096_S4096x4096_S4x2048x4096_2_0_01_1_n_n_wf

class Facts : Prop extends Facts₀ where

variable [Facts]
-- ==== Proof.KPieces.lean ====
/-
  What one call of the kernel body leaves behind, read as values.

  The body keeps a 1024 x 1024 accumulator in a scratch buffer that survives from one grid point to the next.
  At a point it (i) clears the accumulator when the reduction coordinate is 0, (ii) adds to it the product of
  the point's two input blocks, and (iii) copies it to the output block when the reduction coordinate is the last.
  So, writing  step acc a b  for  acc + a · b  (the body's one arithmetic payload) and  zero  for the cleared block:

    * a point that clears leaves   step zero a b          in the accumulator,
    * any other point leaves       step acc a b           over the contents  acc  it found,
    * a last point moreover leaves the same block in the output.
-/
import proofs.«138784_j56779467653691_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- Every load and store of the body is at offset (0, 0) of a whole 1024 x 1024 buffer. -/
theorem hz : (![0, 0] : Fin 2 → Nat) = fun _ => 0 := funext fun a => by fin_cases a <;> rfl

/-- A clearing point: the accumulator is set to zero, read back, and one product is added. -/
theorem scratch_clear (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (a6 : Memref sig .tc .vmem S1024x1024 .f32) (h6 : a6.IsWhole) (hc0 : cond0_0 i) (hc1 : ¬cond0_1 i)
    (x0 x1 : Vec F S1024x1024 .bf16) :
    sout0_A_0 c i a3 h3 a4 h4 a5 h5 a6 h6 hc0 hc1 x0 x1 = k0_pay2 (k0_pay1 (F := F)) x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

/-- A middle point: one product is added to what the accumulator held. -/
theorem scratch_mid (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (a6 : Memref sig .tc .vmem S1024x1024 .f32) (h6 : a6.IsWhole) (hc0 : ¬cond0_0 i) (hc1 : ¬cond0_1 i)
    (x0 x1 : Vec F S1024x1024 .bf16) (xs : Vec F S1024x1024 .f32) :
    sout0_B_0 c i a3 h3 a4 h4 a5 h5 a6 h6 hc0 hc1 x0 x1 xs = k0_pay2 xs x0 x1 := by
  unfold sout0_B_0
  rw [View.read_writes_eq_canon _ _ _ (scover0_B_0 c i a3 h3 a4 h4 a5 h5 a6 h6 hc0 hc1 x0 x1 xs)]
  unfold kernelRun0_B
  dsimp only
  sl_unfold_words
  rw [View.canon_unit_zero hz]
  simp only [View.readAt_eq_ld, h3.read_unread, h4.read_unread, h6.read_unread, View.ld_unit_zero (S := S1024x1024) hz]

/-- A last point: the accumulator is updated in the same way … -/
theorem scratch_last (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (a6 : Memref sig .tc .vmem S1024x1024 .f32) (h6 : a6.IsWhole) (hc0 : ¬cond0_0 i) (hc1 : cond0_1 i)
    (x0 x1 : Vec F S1024x1024 .bf16) (xs : Vec F S1024x1024 .f32) :
    sout0_C_0 c i a3 h3 a4 h4 a5 h5 a6 h6 hc0 hc1 x0 x1 xs = k0_pay2 xs x0 x1 := by
  unfold sout0_C_0
  rw [View.read_writes_eq_canon _ _ _ (scover0_C_0 c i a3 h3 a4 h4 a5 h5 a6 h6 hc0 hc1 x0 x1 xs)]
  unfold kernelRun0_C
  dsimp only
  sl_unfold_words
  rw [View.canon_unit_zero hz]
  simp only [View.readAt_eq_ld, h3.read_unread, h4.read_unread, h6.read_unread, View.ld_unit_zero (S := S1024x1024) hz]

/-- … and the output block receives the updated accumulator. -/
theorem out_last (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (a6 : Memref sig .tc .vmem S1024x1024 .f32) (h6 : a6.IsWhole) (hc0 : ¬cond0_0 i) (hc1 : cond0_1 i)
    (x0 x1 : Vec F S1024x1024 .bf16) (xs : Vec F S1024x1024 .f32) :
    out0_C_2 c i a3 h3 a4 h4 a5 h5 a6 h6 hc0 hc1 x0 x1 xs = k0_pay2 xs x0 x1 := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero hz]
  simp only [View.readAt_eq_ld, h3.read_unread, h4.read_unread, h6.read_unread, View.ld_unit_zero (S := S1024x1024) hz,
    View.readCov_unit_zero (S := S1024x1024) _ hz]

end Cert.KernelIdeal.Pieces

end
-- ==== Proof.KStep.lean ====
/-
  One accumulation step over the extended reals, entry by entry.

  The body's arithmetic payload is  acc + a · b  for 1024 x 1024 blocks: at entry (p, r) it is
  acc(p, r) + Σ_{l < 1024} a(p, l) · b(l, r)  — the matrix unit's product into a zero block is the plain sum of
  products, and the cleared accumulator is the zero block.
-/
import proofs.«138784_j56779467653691_1_alg».proof.Proof.Gen.KernelIdeal.Frame
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx

namespace Cert.KernelIdeal.Step

open Cert.KernelIdeal Cert.KernelIdeal.Gen

/-- The left operand of the block product is read at (row of the result, contraction index) … -/
theorem lhs_row (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_contr (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
/-- … and the right operand at (contraction index, column of the result). -/
theorem rhs_contr (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhs_col (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The block product into a zero block, at entry (p, r): the sum over the 1024 contraction indices. -/
theorem product_apply (a b : FVec Ideal S1024x1024 .bf16) (p r : Fin 1024) :
    matmul (φ₁ := .bf16) (φ₂ := .bf16) dot_S1024x1024_S1024x1024_S1024x1024_1_0_0_1_n_n none a b (constant (F := Ideal) S1024x1024 .f32 0x00000000#32) (ix2 p r)
      = ∑ l : Fin 1024, a (ix2 p l) * b (ix2 l r) := by
  simp only [matmul]
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p r) ((contrEquiv1 dot_S1024x1024_S1024x1024_S1024x1024_1_0_0_1_n_n 1024 rfl rfl).symm k) = ix2 p k := funext fun a => Fin.ext (by
    match a with
    | ⟨0, _⟩ => exact lhs_row _ _
    | ⟨1, _⟩ => exact (lhs_contr _ _).trans hk)
  have er : dot_S1024x1024_S1024x1024_S1024x1024_1_0_0_1_n_n.rhsIdx (ix2 p r) ((contrEquiv1 dot_S1024x1024_S1024x1024_S1024x1024_1_0_0_1_n_n 1024 rfl rfl).symm k) = ix2 k r := funext fun a => Fin.ext (by
    match a with
    | ⟨0, _⟩ => exact (rhs_contr _ _).trans hk
    | ⟨1, _⟩ => exact rhs_col _ _)
  rw [el, er]

/-- One step at entry (p, r). -/
theorem step_apply (acc : Vec Ideal S1024x1024 .f32) (a b : Vec Ideal S1024x1024 .bf16) (p r : Fin 1024) :
    k0_pay2 (F := Ideal) acc a b (ix2 p r) = acc (ix2 p r) + ∑ l : Fin 1024, a (ix2 p l) * b (ix2 l r) := by
  unfold k0_pay2
  simp only [shapeCast_self]
  exact congrArg (acc (ix2 p r) + ·) (product_apply a b p r)

/-- The cleared accumulator is zero everywhere. -/
theorem clear_apply (j : S1024x1024.Idx) : k0_pay1 (F := Ideal) j = 0 := by
  unfold k0_pay1
  simp only [shapeCast_self]
  exact Ideal.ofBits_zero_f32

end Cert.KernelIdeal.Step

end
-- ==== Proof.KBlocks.lean ====
/-
  Where a grid point's blocks sit in their arrays.

  The grid has 8 x 4 x 4 = 128 points; point t has coordinates (i, j, k) = (t / 16, t / 4 mod 4, t mod 4):
  i picks a block of 1024 rows of the left matrix and of the result, j a block of 1024 columns of the right matrix
  and of the result, and k a block of 1024 contraction indices. So the left block at t is rows i, columns k of the
  [8192, 4096] left matrix, the right block is rows k, columns j of the [4096, 4096] right matrix, and the result
  block is rows i, columns j of the [8192, 4096] result.
-/
import proofs.«138784_j56779467653691_1_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The three block-index maps in closed form, decided once over the 128 points. -/
theorem index_lhs : ∀ t : Fin cfg0.N, win0_0.index t 0 = t.val / 16 ∧ win0_0.index t 1 = t.val % 4 :=
  (by decide +kernel : ∀ t : Fin grid0.N, win0_0.index t 0 = t.val / 16 ∧ win0_0.index t 1 = t.val % 4)
theorem index_rhs : ∀ t : Fin cfg0.N, win0_1.index t 0 = t.val % 4 ∧ win0_1.index t 1 = t.val / 4 % 4 :=
  (by decide +kernel : ∀ t : Fin grid0.N, win0_1.index t 0 = t.val % 4 ∧ win0_1.index t 1 = t.val / 4 % 4)
theorem index_out : ∀ t : Fin cfg0.N, win0_2.index t 0 = t.val / 16 ∧ win0_2.index t 1 = t.val / 4 % 4 :=
  (by decide +kernel : ∀ t : Fin grid0.N, win0_2.index t 0 = t.val / 16 ∧ win0_2.index t 1 = t.val / 4 % 4)

/-- Entry (p, l) of the left block at point t is entry (1024 i + p, 1024 k + l) of the left matrix. -/
theorem lhs_block (c : Dev nD) (t : Fin cfg0.N) (p l : Fin 1024) (j : S8192x4096.Idx)
    (h0 : (j 0).val = t.val / 16 * 1024 + p.val) (h1 : (j 1).val = t.val % 4 * 1024 + l.val) :
    (iblk m c 0 t : Vec F S1024x1024 .bf16) (ix2 p l) = (V m c main_v8 : Vec F S8192x4096 .bf16) j := by
  unfold iblk
  rw [View.read_apply]
  show V m c main_v8 _ = V m c main_v8 j
  congr 1
  funext a
  apply Fin.ext
  match a with
  | ⟨0, _⟩ => show win0_0.index t 0 * 1024 + 1 * p.val = (j 0).val; rw [(index_lhs t).1, h0]; omega
  | ⟨1, _⟩ => show win0_0.index t 1 * 1024 + 1 * l.val = (j 1).val; rw [(index_lhs t).2, h1]; omega

/-- Entry (l, r) of the right block at point t is entry (1024 k + l, 1024 j + r) of the right matrix. -/
theorem rhs_block (c : Dev nD) (t : Fin cfg0.N) (l r : Fin 1024) (j : S4096x4096.Idx)
    (h0 : (j 0).val = t.val % 4 * 1024 + l.val) (h1 : (j 1).val = t.val / 4 % 4 * 1024 + r.val) :
    (iblk m c 1 t : Vec F S1024x1024 .bf16) (ix2 l r) = (V m c main_v9 : Vec F S4096x4096 .bf16) j := by
  unfold iblk
  rw [View.read_apply]
  show V m c main_v9 _ = V m c main_v9 j
  congr 1
  funext a
  apply Fin.ext
  match a with
  | ⟨0, _⟩ => show win0_1.index t 0 * 1024 + 1 * l.val = (j 0).val; rw [(index_rhs t).1, h0]; omega
  | ⟨1, _⟩ => show win0_1.index t 1 * 1024 + 1 * r.val = (j 1).val; rw [(index_rhs t).2, h1]; omega

end Cert.KernelIdeal.Blocks

end
-- ==== Proof.KInv.lean ====
/-
  The accumulator over a run of grid points, and the result matrix.

  Points 4q, 4q+1, 4q+2, 4q+3 share the result block (i, j) = (q / 4, q mod 4) and walk the four contraction
  blocks k = 0, 1, 2, 3. The first of them clears the accumulator and each adds its block product, so after point
  4q + k the accumulator holds Σ_{s ≤ k} (left block of 4q+s) · (right block of 4q+s), and the last one copies
  Σ_{s < 4} … to the result block. Entry by entry that is the full product over the 4096 contraction indices:
  result(row, col) = Σ_{kk < 4096} left(row, kk) · right(kk, col). The 32 result blocks tile the [8192, 4096]
  result, so after the run the result array holds this product everywhere.
-/
import proofs.«138784_j56779467653691_1_alg».proof.Proof.KPieces
import proofs.«138784_j56779467653691_1_alg».proof.Proof.KStep
import proofs.«138784_j56779467653691_1_alg».proof.Proof.KBlocks

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen

variable (m : (ℓ : Loc nD τ sig) → Buf (Elt Ideal) ℓ)

/-- The two matrices the region multiplies, as it finds them, and a point's blocks of them. -/
abbrev lhsM (c : Dev nD) : Vec Ideal S8192x4096 .bf16 := V m c main_v8
abbrev rhsM (c : Dev nD) : Vec Ideal S4096x4096 .bf16 := V m c main_v9
abbrev lblk (c : Dev nD) (t : Fin cfg0.N) : Vec Ideal S1024x1024 .bf16 := iblk m c 0 t
abbrev rblk (c : Dev nD) (t : Fin cfg0.N) : Vec Ideal S1024x1024 .bf16 := iblk m c 1 t

/-- After a clearing point the accumulator is zero plus that point's block product. -/
theorem acc_clear (c : Dev nD) (t : Fin cfg0.N) (h0 : t.val % 4 = 0) :
    (outsAt0 m c t.val t.isLt).2 = k0_pay2 (k0_pay1 (F := Ideal)) (lblk m c t) (rblk m c t) := by
  have h1 : ¬t.val % 4 = 3 := by omega
  rw [outsAt0_A m c t h0 h1]
  dsimp only
  exact Pieces.scratch_clear (F := Ideal) c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)

/-- After any other point it is what the point before left plus that point's block product. -/
theorem acc_step (c : Dev nD) (t : Fin cfg0.N) (h0 : ¬t.val % 4 = 0) :
    (outsAt0 m c t.val t.isLt).2
      = k0_pay2 (outsAt0 m c (t.val - 1) (Nat.lt_of_le_of_lt (Nat.sub_le _ _) t.isLt)).2 (lblk m c t) (rblk m c t) := by
  by_cases h1 : t.val % 4 = 3
  · rw [outsAt0_C m c t h0 h1]
    dsimp only
    exact Pieces.scratch_last (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2
  · rw [outsAt0_B m c t h0 h1]
    dsimp only
    exact Pieces.scratch_mid (F := Ideal) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2

/-- At a last point the result block receives the accumulator. -/
theorem out_last_eq (c : Dev nD) (t : Fin cfg0.N) (h1 : t.val % 4 = 3) :
    (outsAt0 m c t.val t.isLt).1 = (outsAt0 m c t.val t.isLt).2 := by
  have h0 : ¬t.val % 4 = 0 := by omega
  rw [outsAt0_C m c t h0 h1]
  dsimp only
  exact (Pieces.out_last (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2).trans
    (Pieces.scratch_last (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2).symm

/-- Point n's block product at entry (p, r) (zero past the grid, where it is never used). -/
def addend (c : Dev nD) (n : ℕ) (p r : Fin 1024) : EReal :=
  if h : n < cfg0.N then ∑ l : Fin 1024, lblk m c ⟨n, h⟩ (ix2 p l) * rblk m c ⟨n, h⟩ (ix2 l r) else 0

/-- The accumulator after point n holds the block products of its run up to n, entry by entry. -/
theorem acc_eq (c : Dev nD) : ∀ (n : ℕ) (h : n < cfg0.N) (p r : Fin 1024),
    (outsAt0 m c n h).2 (ix2 p r) = ∑ s ∈ Finset.range (n % 4 + 1), addend m c (4 * (n / 4) + s) p r
  | 0, h, p, r => by
    rw [acc_clear m c ⟨0, h⟩ rfl, Step.step_apply, Step.clear_apply, zero_add]
    show _ = ∑ s ∈ Finset.range 1, addend m c (4 * (0 / 4) + s) p r
    rw [Finset.sum_range_one]
    show _ = addend m c 0 p r
    unfold addend
    rw [dif_pos h]
  | n + 1, h, p, r => by
    by_cases h0 : (n + 1) % 4 = 0
    · rw [acc_clear m c ⟨n + 1, h⟩ h0, Step.step_apply, Step.clear_apply, zero_add, h0, zero_add,
        Finset.sum_range_one, add_zero, show 4 * ((n + 1) / 4) = n + 1 by omega]
      unfold addend
      rw [dif_pos h]
    · rw [acc_step m c ⟨n + 1, h⟩ h0, Step.step_apply]
      show (outsAt0 m c n (Nat.lt_of_succ_lt h)).2 (ix2 p r) + _ = _
      rw [acc_eq c n (Nat.lt_of_succ_lt h) p r, show (n + 1) % 4 = n % 4 + 1 by omega,
        show (n + 1) / 4 = n / 4 by omega, Finset.sum_range_succ _ (n % 4 + 1),
        show 4 * (n / 4) + (n % 4 + 1) = n + 1 by omega]
      congr 1
      unfold addend
      rw [dif_pos h]

/-- The full matrix product: what the result array holds after the run. -/
def prodM (c : Dev nD) : Vec Ideal S8192x4096 .f32 :=
  fun j => ∑ kk : Fin 4096, lhsM m c (ix2 (j 0) kk) * rhsM m c (ix2 kk (j 1))

/-- The block product of point 4q + s at block entry (p, r), in terms of the two matrices: the 1024 contraction
    indices of block s, at row 1024 (q / 4) + p and column 1024 (q mod 4) + r. The pair (s, l) names the
    contraction index 1024 s + l. -/
theorem addend_eq (c : Dev nD) (q : ℕ) (hq : q < 32) (s : Fin 4) (p r : Fin 1024) (j : S8192x4096.Idx)
    (h0 : (j 0).val = q / 4 * 1024 + p.val) (h1 : (j 1).val = q % 4 * 1024 + r.val) :
    addend m c (4 * q + s.val) p r
      = ∑ l : Fin 1024, lhsM m c (ix2 (j 0) (finProdFinEquiv (s, l))) * rhsM m c (ix2 (finProdFinEquiv (s, l)) (j 1)) := by
  have hN : cfg0.N = 128 := N_0
  have hs : s.val < 4 := s.isLt
  have hlt : 4 * q + s.val < cfg0.N := by omega
  unfold addend
  rw [dif_pos hlt]
  refine Finset.sum_congr rfl fun l _ => ?_
  have hkk : (finProdFinEquiv (s, l) : Fin (4 * 1024)).val = l.val + 1024 * s.val := finProdFinEquiv_apply_val (s, l)
  have e1 := Blocks.lhs_block m c ⟨4 * q + s.val, hlt⟩ p l (ix2 (j 0) (finProdFinEquiv (s, l)))
    (by show (j 0).val = (4 * q + s.val) / 16 * 1024 + p.val; omega)
    (by show (finProdFinEquiv (s, l) : Fin (4 * 1024)).val = (4 * q + s.val) % 4 * 1024 + l.val; omega)
  have e2 := Blocks.rhs_block m c ⟨4 * q + s.val, hlt⟩ l r (ix2 (finProdFinEquiv (s, l)) (j 1))
    (by show (finProdFinEquiv (s, l) : Fin (4 * 1024)).val = (4 * q + s.val) % 4 * 1024 + l.val; omega)
    (by show (j 1).val = (4 * q + s.val) / 4 % 4 * 1024 + r.val; omega)
  exact congrArg₂ (· * ·) e1 e2

/-- What a last point t copies to the result block, at block entry (p, r): the full product at the entry's place
    (row 1024 i + p, column 1024 j + r) in the result. -/
theorem flush_val (c : Dev nD) (t : Fin cfg0.N) (h3 : t.val % 4 = 3) (p r : Fin 1024) (j : S8192x4096.Idx)
    (h0 : (j 0).val = t.val / 16 * 1024 + p.val) (h1 : (j 1).val = t.val / 4 % 4 * 1024 + r.val) :
    (outsAt0 m c t.val t.isLt).1 (ix2 p r) = prodM m c j := by
  have hN : cfg0.N = 128 := N_0
  have ht : t.val < 128 := lt_of_lt_of_eq t.isLt hN
  rw [out_last_eq m c t h3, acc_eq m c t.val t.isLt p r, h3]
  unfold prodM
  refine Eq.trans ?_ (Equiv.sum_comp (finProdFinEquiv (m := 4) (n := 1024))
    (fun kk : Fin 4096 => lhsM m c (ix2 (j 0) kk) * rhsM m c (ix2 kk (j 1))))
  rw [Fintype.sum_prod_type, Finset.sum_range]
  refine Finset.sum_congr rfl fun s _ => ?_
  exact addend_eq m c (t.val / 4) (by omega) s p r j (by omega) (by omega)

/-- So what a last point writes back is its block of the full product. -/
theorem flushed_eq (c : Dev nD) (t : Fin cfg0.N) (hf : (cfg0.win 2).flush t = true) :
    (dats m 0 c).flushed 2 t = ((cfg0.win 2).blk t).view.read (Elt Ideal) (prodM m c) := by
  have h3 : t.val % 4 = 3 := (flush0_2 t).mp hf
  show (cfg0.win 2).cut (grid0.coords t) ((dats m 0 c).after 2 t) = _
  rw [after0_2]
  funext y
  obtain ⟨p, r, rfl⟩ : ∃ (p r : Fin 1024), y = ix2 p r := ⟨y 0, y 1, eq_ix2 y⟩
  rw [View.read_apply]
  show (outsAt0 m c t.val t.isLt).1 (ix2 p r) = prodM m c _
  refine flush_val m c t h3 p r _ ?_ ?_
  · show win0_2.index t 0 * 1024 + 1 * p.val = t.val / 16 * 1024 + p.val
    rw [(Blocks.index_out t).1]; omega
  · show win0_2.index t 1 * 1024 + 1 * r.val = t.val / 4 % 4 * 1024 + r.val
    rw [(Blocks.index_out t).2]; omega

/-- An entry of the result lies in point t's block when each coordinate lies in the block's range. -/
theorem mem_blk (t : Fin cfg0.N) (i : S8192x4096.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v10).slice (win0_2.rect t)).set ↔ _
  rw [View.set_slice_whole, Rect.mem_set_unit]
  exact Iff.rfl

/-- Every entry (row, col) of the result is written back by the last point of the run of block
    (row / 1024, col / 1024). -/
theorem cover (i : S8192x4096.Idx) :
    ∃ t : Fin cfg0.N, (cfg0.win 2).flush t = true ∧ i ∈ ((cfg0.win 2).blk t).view.set := by
  have hi0 : (i 0).val < 8192 := (i 0).isLt
  have hi1 : (i 1).val < 4096 := (i 1).isLt
  have hN : cfg0.N = 128 := N_0
  obtain ⟨tv, htv⟩ : ∃ tv : ℕ, tv = ((i 0).val / 1024 * 4 + (i 1).val / 1024) * 4 + 3 := ⟨_, rfl⟩
  have hlt : tv < cfg0.N := by omega
  refine ⟨⟨tv, hlt⟩, (flush0_2 _).mpr (by show tv % 4 = 3; omega), ?_⟩
  rw [mem_blk]
  intro a
  match a with
  | ⟨0, _⟩ =>
    show win0_2.index ⟨tv, hlt⟩ 0 * 1024 ≤ (i 0).val ∧ (i 0).val < win0_2.index ⟨tv, hlt⟩ 0 * 1024 + 1024
    rw [(Blocks.index_out ⟨tv, hlt⟩).1]
    show tv / 16 * 1024 ≤ (i 0).val ∧ (i 0).val < tv / 16 * 1024 + 1024
    omega
  | ⟨1, _⟩ =>
    show win0_2.index ⟨tv, hlt⟩ 1 * 1024 ≤ (i 1).val ∧ (i 1).val < win0_2.index ⟨tv, hlt⟩ 1 * 1024 + 1024
    rw [(Blocks.index_out ⟨tv, hlt⟩).2]
    show tv / 4 % 4 * 1024 ≤ (i 1).val ∧ (i 1).val < tv / 4 % 4 * 1024 + 1024
    omega

/-- After the run the result array holds the full product. -/
theorem final (c : Dev nD) : (dats m 0 c).arrAt 2 cfg0.N = prodM m c :=
  (dats m 0 c).arrAt_eq_of_cover 2 (prodM m c) (flushed_eq m c) cover

end Cert.KernelIdeal.Acc

end
-- ==== Proof.Spec.lean ====
/-
  The function both programs compute, over the extended reals.

  Inputs: an activation array x of shape [4, 2048, 4096], a 0/1 connectivity matrix w of shape [4096, 4096]
  (one bit per entry) and a scalar sc.  Input channel k of x is kept as it is when k < 3277 (an excitatory
  channel) and is multiplied by the constant -4 otherwise (an inhibitory channel); the rescaled activations are
  contracted with w, read as the numbers 0 and 1, over the 4096 input channels, and the result is multiplied by sc:

      spec x w sc (b, s, f) = sc · Σ_{k < 4096} xe x b s k · w(k, f).
-/
import Idealize.ShloMosaic.PureOps.Ideal
import Idealize.ShloMosaic.Lib.ValueIdx

noncomputable section

namespace Cert.Bridge

open Idealize.ShloMosaic Idealize.ShloMosaic.ValueIdx

/-- The activations' shape, the connectivity matrix's, and the scalar's. -/
abbrev SX : Shape := ⟨3, ![4, 2048, 4096]⟩
abbrev SW : Shape := ⟨2, ![4096, 4096]⟩
abbrev S0 : Shape := ⟨0, ![]⟩

/-- The constant the inhibitory channels are multiplied by (the float -4, never evaluated: both programs use
    the same word). -/
abbrev inh : EReal := Ideal.ofBits .f32 0xC0800000#32

/-- The sign-and-rescale step at row (b, s) and input channel k. -/
def xe (x : SX.Idx → EReal) (b : Fin 4) (s : Fin 2048) (k : Fin 4096) : EReal :=
  if k.val < 3277 then x (ix3 b s k) else inh * x (ix3 b s k)

/-- A bit of the connectivity matrix read as the number 0 or 1. -/
abbrev bit (w : SW.Idx → BitVec 1) (k f : Fin 4096) : EReal := (((w (ix2 k f)).toNat : ℝ) : EReal)

/-- The whole result. -/
def spec (x : SX.Idx → EReal) (w : SW.Idx → BitVec 1) (sc : S0.Idx → EReal) : SX.Idx → EReal :=
  fun i => sc ix0 * ∑ k : Fin 4096, xe x (i 0) (i 1) k * bit w k (i 2)

end Cert.Bridge

end
-- ==== Proof.KHost.lean ====
import proofs.«138784_j56779467653691_1_alg».proof.Proof.Gen.KernelIdeal.Frame
import proofs.«138784_j56779467653691_1_alg».proof.Proof.Spec
import Idealize.ShloMosaic.Lib.StableHlo.Run
import Idealize.ShloMosaic.Lib.StableHlo.Predicate
import Idealize.ShloMosaic.Lib.ValueIdx
import Idealize.ShloMosaic.Lib.Pipeline.Value
import Idealize.ShloMosaic.PureOps.IdealRules

/-
  What the two operands of the matrix product hold when the product starts, at the ideal instance.

  Before the product the program builds, from the activations x : [4, 2048, 4096]:
    * a per-channel factor  g(k) = 1 for k < 3277 and the constant -4 for k ≥ 3277  (an index compared with 3277,
      then a select between two constants),
    * the rescaled activations  x(b, s, k) · g(k),  flattened row-major to [8192, 4096]: row r is (r / 2048, r % 2048),
    * the connectivity bits read as the numbers 0 and 1.
  The format changes are the identity over the extended reals.  So the left operand at (r, k) is
  xe x (r / 2048) (r % 2048) k and the right operand at (k, f) is the bit w(k, f) as a number.
-/

set_option maxRecDepth 16384

noncomputable section

namespace Cert.KernelIdeal.HostValue

open Idealize.ShloMosaic Idealize.ShloMosaic.TcCoe Idealize.ShloMosaic.ValueIdx
open Idealize.ShloMosaic.StableHlo
open Cert.KernelIdeal Cert.KernelIdeal.Gen

variable (m : (ℓ : Loc nD τ sig) → Buf (Elt Ideal) ℓ)

/-! ## The per-channel factor -/

/-- The channel's position compared with 3277: the bit 1 exactly on the channels below 3277. -/
abbrev below : IVec S4096 1 :=
  cmpi .slt (iotaInDim S4096 32 0) (broadcastInDim S4096 ![] bcast_S_S4096 (constantI S_ 32 3277#32))

/-- The per-channel factor: the word of 1.0 on the channels below 3277, the word of -4.0 on the others. -/
abbrev factor : FVec Ideal S4096 .f32 :=
  select below
    (broadcastInDim S4096 ![] bcast_S_S4096 (constant (F := Ideal) S_ .f32 0x3F800000#32))
    (broadcastInDim S4096 ![] bcast_S_S4096 (constant (F := Ideal) S_ .f32 0xC0800000#32))

/-- The comparison's bit at channel k is 1 exactly when k < 3277 (both words are small non-negative numbers, so the
    signed comparison of the words is the comparison of the numbers). -/
theorem below_at (k : Fin 4096) : below (ix1 k) = 1#1 ↔ k.val < 3277 := by
  have hk : k.val < 2 ^ 31 := lt_trans k.isLt (by norm_num)
  exact Predicate.slt_ofNat_iff k.val 3277 hk (by norm_num)

/-- The factor at channel k: 1 below 3277, the constant -4 from there on. -/
theorem factor_at (k : Fin 4096) :
    factor (ix1 k) = if k.val < 3277 then (1 : EReal) else Cert.Bridge.inh := by
  show Scalar.select (below (ix1 k)) (Ideal.ofBits .f32 0x3F800000#32) (Ideal.ofBits .f32 0xC0800000#32) = _
  by_cases h : k.val < 3277
  · rw [(below_at k).mpr h, select_one, if_pos h]
    exact IdealRules.sign_bit.ideal_onePat .f32
  · rw [eq_zero_of_ne_one (fun e => h ((below_at k).mp e)), select_zero, if_neg h]

/-! ## The rescaled activations -/

/-- The activations times the factor along the channel axis, at (b, s, k): the sign-and-rescale step. -/
theorem scaled_at (x : FVec Ideal S4x2048x4096 .f32) (b : Fin 4) (s : Fin 2048) (k : Fin 4096) :
    mulf x (broadcastInDim S4x2048x4096 ![0, 1, 2] bcast_S1x1x4096_S4x2048x4096_0_1_2
        (shapeCast S1x1x4096 factor shapeCasts_S4096_S1x1x4096)) (ix3 b s k)
      = Cert.Bridge.xe x b s k := by
  rw [mulf_apply]
  rw [broadcastInDim_apply ![0, 1, 2] bcast_S1x1x4096_S4x2048x4096_0_1_2 _ (ix3 b s k) (ix3 (0 : Fin 1) (0 : Fin 1) k)
    (fun a => match a with | ⟨0, _⟩ => rfl | ⟨1, _⟩ => rfl | ⟨2, _⟩ => rfl)]
  rw [shapeCast_apply factor shapeCasts_S4096_S1x1x4096 (ix3 (0 : Fin 1) (0 : Fin 1) k) (ix1 k)
    (by rw [Shape.rowMajor_val_one, Shape.rowMajor_val_three]; show k.val = (0 * 1 + 0) * 4096 + k.val; omega)]
  rw [factor_at]
  unfold Cert.Bridge.xe
  by_cases h : k.val < 3277
  · rw [if_pos h, if_pos h, mul_one]
  · rw [if_neg h, if_neg h, mul_comm]

/-! ## The two operands when the product starts -/

/-- The right operand is the connectivity bits converted to numbers. -/
theorem rhs_term (c : Dev nD) :
    (V m c main_v9 : S4096x4096.Idx → EReal)
      = uitofp (F := Ideal) .bf16 (m ((c : Thread nD τ).loc main_arg1)) := by
  dsimp only [V, V0]
  simp only [hostOps0, hostOps0_1, hostOps0_2, List.flatten_cons, List.flatten_nil, List.append_nil, List.cons_append, List.nil_append]
  after_results

/-- The left operand is the rescaled activations, flattened to [8192, 4096] and narrowed. -/
theorem lhs_term (c : Dev nD) :
    (V m c main_v8 : S8192x4096.Idx → EReal)
      = truncf (F := Ideal) .bf16
          (shapeCast S8192x4096
            (mulf (F := Ideal) (m ((c : Thread nD τ).loc main_arg0))
              (broadcastInDim S4x2048x4096 ![0, 1, 2] bcast_S1x1x4096_S4x2048x4096_0_1_2
                (shapeCast S1x1x4096 factor shapeCasts_S4096_S1x1x4096)))
            shapeCasts_S4x2048x4096_S8192x4096)
          bitsLt_bf16_f32 := by
  dsimp only [V, V0]
  simp only [hostOps0, hostOps0_1, hostOps0_2, List.flatten_cons, List.flatten_nil, List.append_nil, List.cons_append, List.nil_append]
  after_results
  rfl

/-- the matrix product's left operand at (r, k): row r of the flattened [8192, 4096] activations is row (r / 2048, r % 2048) of x, sign-and-rescaled -/
theorem lhs_at (c : Dev nD) (j : S8192x4096.Idx) :
    (V m c main_v8 : S8192x4096.Idx → EReal) j
      = Cert.Bridge.xe (m ((c : Thread nD τ).loc main_arg0))
          ⟨(j 0).val / 2048, by have : (j 0).val < 8192 := (j 0).isLt; omega⟩
          ⟨(j 0).val % 2048, Nat.mod_lt _ (by norm_num)⟩ (j 1) := by
  have h0 : (j 0).val < 8192 := (j 0).isLt
  refine (congrFun (lhs_term m c) j).trans ?_
  refine (truncf_apply _ bitsLt_bf16_f32 j).trans ?_
  refine (shapeCast_apply _ shapeCasts_S4x2048x4096_S8192x4096 j
    (ix3 (⟨(j 0).val / 2048, by omega⟩ : Fin 4) (⟨(j 0).val % 2048, Nat.mod_lt _ (by norm_num)⟩ : Fin 2048) (j 1)) ?_).trans ?_
  · rw [Shape.rowMajor_val_three, Shape.rowMajor_val_two]
    show ((j 0).val / 2048 * 2048 + (j 0).val % 2048) * 4096 + (j 1).val = (j 0).val * 4096 + (j 1).val
    have := Nat.div_add_mod' (j 0).val 2048
    omega
  · exact scaled_at _ _ _ _

/-- the right operand at (k, f): the bit as a number -/
theorem rhs_at (c : Dev nD) (j : S4096x4096.Idx) :
    (V m c main_v9 : S4096x4096.Idx → EReal) j
      = Cert.Bridge.bit (m ((c : Thread nD τ).loc main_arg1)) (j 0) (j 1) := by
  refine (congrFun (rhs_term m c) j).trans ?_
  exact congrArg (fun i => (((m ((c : Thread nD τ).loc main_arg1) i).toNat : ℝ) : EReal)) (eq_ix2 j)

end Cert.KernelIdeal.HostValue

end
-- ==== Proof.KTail.lean ====
/-
  The whole idealized kernel program, read as a value.

  After the matrix product the program multiplies every entry by the scalar and views the [8192, 4096] result as
  [4, 2048, 4096]: entry (b, s, f) is  sc · product(2048 b + s, f).  With the product's two operands read at an
  index (the rescaled activations, row 2048 b + s being row (b, s); the connectivity bits as numbers) this is the
  common function of the three inputs.
-/
import proofs.«138784_j56779467653691_1_alg».proof.Proof.KInv
import proofs.«138784_j56779467653691_1_alg».proof.Proof.KHost
import proofs.«138784_j56779467653691_1_alg».proof.Proof.Spec
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen

variable (m : (ℓ : Loc nD τ sig) → Buf (Elt Ideal) ℓ) (ρ : Dev nD → PrngReg)

/-- The program's result after the host operations that follow the matrix product: the scalar times the product,
    viewed as [4, 2048, 4096]. -/
theorem tail_eq (c : Dev nD) :
    Pipeline.afterTail₀ cfgs (dats m) 0 (V0 m) [hostOps1] c main_v13
      = shapeCast S4x2048x4096 (mulf (F := Ideal) (φ := .f32) (broadcastInDim S8192x4096 ![] bcast_S_S8192x4096 (m ((c : Thread nD τ).loc main_arg2))) (Acc.prodM m c)) shapeCasts_S8192x4096_S4x2048x4096 := by
  unfold Pipeline.afterTail₀
  show StableHlo.after hostOps1 _ (Proc.devRef .tc main_v13) = _
  after_results
  have e2 : Pipeline.withArrays (cfgs 0).spec c (V0 m c) (fun w => (dats m 0 c).arrAt w (cfgs 0).N) (Proc.devRef .tc main_arg2)
      = m ((c : Thread nD τ).loc main_arg2) :=
    (Pipeline.withArrays_of_ne _ c (V0 m c) _ main_arg2 (by exact (by decide : ∀ w, Pipeline.arrRef spec0 w ≠ main_arg2))).trans (V_main_arg2 m c)
  have e10 : Pipeline.withArrays (cfgs 0).spec c (V0 m c) (fun w => (dats m 0 c).arrAt w (cfgs 0).N) (Proc.devRef .tc main_v10)
      = Acc.prodM m c :=
    (Pipeline.withArrays_arr spec0 launch0.win.arr_inj c _ _ 2).trans (Acc.final m c)
  rw [e2, e10]
  rfl

/-- The matrix product at (row, f), with its two operands read at an index: the rescaled activations of row
    (row / 2048, row mod 2048) against the connectivity bits as numbers. -/
theorem prod_at (c : Dev nD) (row : Fin 8192) (f : Fin 4096) :
    Acc.prodM m c (ix2 row f)
      = ∑ kk : Fin 4096, Cert.Bridge.xe (m ((c : Thread nD τ).loc main_arg0))
          ⟨row.val / 2048, by have := row.isLt; omega⟩ ⟨row.val % 2048, Nat.mod_lt _ (by norm_num)⟩ kk
          * Cert.Bridge.bit (m ((c : Thread nD τ).loc main_arg1)) kk f := by
  unfold Acc.prodM
  refine Finset.sum_congr rfl fun kk _ => ?_
  exact congrArg₂ (fun (a b : EReal) => a * b) (HostValue.lhs_at m c (ix2 row kk)) (HostValue.rhs_at m c (ix2 kk f))

/-- The scalar times a [8192, 4096] matrix viewed as [4, 2048, 4096] is the common function when the matrix is
    the product above: at (b, s, f) the flattened row is 2048 b + s, whose quotient and remainder by 2048 are b and s. -/
theorem scaled_view_eq (x : Cert.Bridge.SX.Idx → EReal) (w : Cert.Bridge.SW.Idx → BitVec 1) (sc : Cert.Bridge.S0.Idx → EReal)
    (P : S8192x4096.Idx → EReal)
    (hP : ∀ (row : Fin 8192) (f : Fin 4096), P (ix2 row f)
      = ∑ kk : Fin 4096, Cert.Bridge.xe x ⟨row.val / 2048, by have := row.isLt; omega⟩ ⟨row.val % 2048, Nat.mod_lt _ (by norm_num)⟩ kk
          * Cert.Bridge.bit w kk f) :
    shapeCast S4x2048x4096 (mulf (F := Ideal) (φ := .f32) (broadcastInDim S8192x4096 ![] bcast_S_S8192x4096 sc) P) shapeCasts_S8192x4096_S4x2048x4096
      = Cert.Bridge.spec x w sc := by
  funext i
  obtain ⟨b, s, f, rfl⟩ : ∃ (b : Fin 4) (s : Fin 2048) (f : Fin 4096), i = ix3 b s f := ⟨i 0, i 1, i 2, eq_ix3 i⟩
  have hb : b.val < 4 := b.isLt
  have hs : s.val < 2048 := s.isLt
  refine (shapeCast_apply _ shapeCasts_S8192x4096_S4x2048x4096 (ix3 b s f) (ix2 (⟨b.val * 2048 + s.val, by omega⟩ : Fin 8192) f) ?_).trans ?_
  · rw [Shape.rowMajor_val_two, Shape.rowMajor_val_three]
    show (b.val * 2048 + s.val) * 4096 + f.val = (b.val * 2048 + s.val) * 4096 + f.val
    rfl
  rw [mulf_apply, broadcastInDim_apply ![] bcast_S_S8192x4096 sc _ ix0 (fun a => a.elim0), hP]
  unfold Cert.Bridge.spec
  show sc ix0 * _ = sc ix0 * _
  congr 1
  refine Finset.sum_congr rfl fun kk _ => ?_
  have eb : (⟨(b.val * 2048 + s.val) / 2048, by omega⟩ : Fin 4) = b := Fin.ext (by show (b.val * 2048 + s.val) / 2048 = b.val; omega)
  have es : (⟨(b.val * 2048 + s.val) % 2048, Nat.mod_lt _ (by norm_num)⟩ : Fin 2048) = s := Fin.ext (by show (b.val * 2048 + s.val) % 2048 = s.val; omega)
  show Cert.Bridge.xe x ⟨(b.val * 2048 + s.val) / 2048, _⟩ ⟨(b.val * 2048 + s.val) % 2048, _⟩ kk * Cert.Bridge.bit w kk f
    = Cert.Bridge.xe x b s kk * Cert.Bridge.bit w kk f
  rw [eb, es]

/-- The run of the idealized kernel program: it ends with the result at the common function of the arguments, and
    the arguments as they were. -/
theorem run : θ_run defs (onTc (τ := τ) (main (F := Ideal))) ⟨m, fun _ => 0, ρ⟩ fun r => ∀ c : Dev nD,
      r.2.mem ((c : Thread nD τ).loc main_v13)
        = Cert.Bridge.spec (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v13 (Pipeline.mem_restRefs_of main_v13 (by decide) (by decide))).trans
        ((tail_eq m c).trans (scaled_view_eq _ _ _ (Acc.prodM m c) (prod_at m c))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Result

end
-- ==== Proof.RefSide.lean ====
/-
  The reference program's result, read at an index, is the common function of Spec.lean.

  The reference slices the activations into the channels below 3277 and the channels from 3277 on, multiplies the
  second slice by the constant -4, joins the two slices again along the channel axis, contracts the joined array
  with the connectivity matrix (its bits read as the numbers 0 and 1) over the 4096 channels, and multiplies the
  contraction by the scalar.  The only stage whose element is not a fixed function of one element of each operand
  is the join: at channel k it reads the first slice at k when k < 3277 and the second at k - 3277 otherwise.
  Both cases are read here by hand; the rest is the chain of the generated read-at-an-index lemmas.
-/
import proofs.«138784_j56779467653691_1_alg».proof.Proof.Gen.ReferenceIdeal.Read
import proofs.«138784_j56779467653691_1_alg».proof.Proof.Spec

noncomputable section

namespace Cert.ReferenceIdeal.RefValue

open Cert.ReferenceIdeal Cert.ReferenceIdeal.Gen Cert.ReferenceIdeal.Read Idealize.ShloMosaic
  Idealize.ShloMosaic.ValueIdx

/-- The contraction's left index at output (b, s, f) and channel k is (b, s, k). -/
theorem lidx_eq (b : Fin 4) (s : Fin 2048) (f k : Fin 4096) :
    lidx_main_v6 (ix3 b s f) k = ix3 b s k := by
  funext a
  match a with
  | ⟨0, _⟩ => rfl
  | ⟨1, _⟩ => rfl
  | ⟨2, _⟩ => rfl

/-- The contraction's right index at output (b, s, f) and channel k is (k, f). -/
theorem ridx_eq (b : Fin 4) (s : Fin 2048) (f k : Fin 4096) :
    ridx_main_v6 (ix3 b s f) k = ix2 k f := by
  funext a
  match a with
  | ⟨0, _⟩ => rfl
  | ⟨1, _⟩ => rfl

/-- The joined array at a channel below 3277 is the activation itself: the join reads the first slice at the same
    coordinates, and the first slice starts at channel 0. -/
theorem joined_low (x : (⟨S4x2048x4096, .f32⟩ : BufTy).Contents (Elt Ideal)) (b : Fin 4) (s : Fin 2048)
    (k : Fin 4096) (hk : k.val < 3277) :
    val_main_v4 (F := Ideal) x (ix3 b s k) = x (ix3 b s k) := by
  unfold val_main_v4
  refine (concatenate_pair_apply_left (t := S4x2048x4096) (s₁ := S4x2048x3277) (s₂ := S4x2048x819) 2 _ _ _
    (ix3 b s k) rfl (ix3 b s (⟨k.val, hk⟩ : Fin 3277)) ?_).trans ?_
  · intro a
    match a with
    | ⟨0, _⟩ => rfl
    | ⟨1, _⟩ => rfl
    | ⟨2, _⟩ => rfl
  · rw [val_main_v0_apply]
    congr 1
    funext a
    match a with
    | ⟨0, _⟩ => rfl
    | ⟨1, _⟩ => rfl
    | ⟨2, _⟩ => rfl

/-- The joined array at a channel from 3277 on is -4 times the activation: the join reads the second slice at
    channel k - 3277, the second slice starts at channel 3277, and (k - 3277) + 3277 = k. -/
theorem joined_high (x : (⟨S4x2048x4096, .f32⟩ : BufTy).Contents (Elt Ideal)) (b : Fin 4) (s : Fin 2048)
    (k : Fin 4096) (hk : ¬ k.val < 3277) :
    val_main_v4 (F := Ideal) x (ix3 b s k) = Cert.Bridge.inh * x (ix3 b s k) := by
  have hk' : k.val - 3277 < 819 := by have := k.isLt; omega
  unfold val_main_v4
  refine (concatenate_pair_apply_right (t := S4x2048x4096) (s₁ := S4x2048x3277) (s₂ := S4x2048x819) 2 _ _ _
    (ix3 b s k) rfl rfl (ix3 b s (⟨k.val - 3277, hk'⟩ : Fin 819)) ?_ ?_).trans ?_
  · intro a ha
    match a, ha with
    | ⟨0, _⟩, _ => rfl
    | ⟨1, _⟩, _ => rfl
    | ⟨2, _⟩, h => exact absurd rfl h
  · show (k.val - 3277) + 3277 = k.val
    omega
  · rw [val_main_v3_apply, val_main_v2_apply, val_main_cst_apply, val_main_v1_apply]
    show Cert.Bridge.inh * x _ = Cert.Bridge.inh * x _
    congr 2
    funext a
    match a with
    | ⟨0, _⟩ => rfl
    | ⟨1, _⟩ => rfl
    | ⟨2, _⟩ => exact Fin.ext (show 3277 + (k.val - 3277) = k.val by omega)

/-- The reference's result is the common function. -/
theorem ref_eq_spec (x : (⟨S4x2048x4096, .f32⟩ : BufTy).Contents (Elt Ideal))
    (w : (⟨S4096x4096, .i1⟩ : BufTy).Contents (Elt Ideal)) (sc : (⟨S_, .f32⟩ : BufTy).Contents (Elt Ideal)) :
    Cert.ReferenceIdeal.Read.val_main_v8 (F := Ideal) x w sc = Cert.Bridge.spec x w sc := by
  funext i
  obtain ⟨b, s, f, rfl⟩ : ∃ (b : Fin 4) (s : Fin 2048) (f : Fin 4096), i = ix3 b s f :=
    ⟨i 0, i 1, i 2, eq_ix3 i⟩
  rw [val_main_v8_apply, val_main_v7_apply, val_main_v6_apply]
  show sc ix0 * _ = sc ix0 * _
  congr 1
  refine Finset.sum_congr rfl fun k _ => ?_
  rw [lidx_eq, ridx_eq, val_main_v5_apply]
  show _ * Cert.Bridge.bit w k f = Cert.Bridge.xe x b s k * Cert.Bridge.bit w k f
  congr 1
  unfold Cert.Bridge.xe
  split
  · next h => exact joined_low x b s k h
  · next h => exact joined_high x b s k h

end Cert.ReferenceIdeal.RefValue

end
-- ==== Proof.lean ====
/-
  Equivalence of a blocked matrix-product kernel with its reference, over the extended reals.

  Both programs take activations x : [4, 2048, 4096], a 0/1 connectivity matrix w : [4096, 4096] and a scalar sc.
  Input channel k of x is kept when k < 3277 and multiplied by the constant -4 otherwise; the rescaled activations
  are contracted with w over the 4096 channels and the result is multiplied by sc (Spec.lean).

  The reference does this with one contraction (RefSide.lean). The kernel program flattens the rescaled activations
  to an [8192, 4096] matrix (KHost.lean), multiplies it by w block by block on an 8 x 4 x 4 grid — 1024 x 1024 blocks,
  the four contraction blocks of a result block accumulated in a buffer that is cleared at the first and copied
  out at the last (KPieces.lean, KStep.lean, KBlocks.lean, KInv.lean) — and scales and reshapes the product
  (KTail.lean). Over the extended reals addition is commutative and associative, so the four partial sums of 1024
  products are the one sum of 4096; multiplying by 1 is the identity and multiplication commutes, so the two
  ways of rescaling agree. No finiteness of the inputs is needed.

  The three programs run, without fault and leaving their arguments unchanged (the frames); the idealized kernel
  is the kernel's own text read over the extended reals (nothing was rewritten); and the two idealized programs
  end with equal results.
-/
import proofs.«138784_j56779467653691_1_alg».proof.Defs
import proofs.«138784_j56779467653691_1_alg».proof.Proof.Gen.Kernel
import proofs.«138784_j56779467653691_1_alg».proof.Proof.Gen.Kernel.Skeleton
import proofs.«138784_j56779467653691_1_alg».proof.Proof.Gen.Kernel.Launch
import proofs.«138784_j56779467653691_1_alg».proof.Proof.Gen.Kernel.Points
import proofs.«138784_j56779467653691_1_alg».proof.Proof.Gen.Kernel.Frame
import proofs.«138784_j56779467653691_1_alg».proof.Proof.Gen.KernelIdeal
import proofs.«138784_j56779467653691_1_alg».proof.Proof.Gen.KernelIdeal.Skeleton
import proofs.«138784_j56779467653691_1_alg».proof.Proof.Gen.KernelIdeal.Launch
import proofs.«138784_j56779467653691_1_alg».proof.Proof.Gen.KernelIdeal.Points
import proofs.«138784_j56779467653691_1_alg».proof.Proof.Gen.KernelIdeal.Frame
import proofs.«138784_j56779467653691_1_alg».proof.Proof.Gen.ReferenceIdeal
import proofs.«138784_j56779467653691_1_alg».proof.Proof.Gen.ReferenceIdeal.Run
import proofs.«138784_j56779467653691_1_alg».proof.Proof.Gen.ReferenceIdeal.Read
import proofs.«138784_j56779467653691_1_alg».proof.Proof.Gen.Pre_finite_inputs
import proofs.«138784_j56779467653691_1_alg».proof.Proof.KTail
import proofs.«138784_j56779467653691_1_alg».proof.Proof.RefSide
import Idealize.ShloMosaic.Adequacy
import Idealize.ShloMosaic.Init

noncomputable section

namespace Cert.Proof

open Idealize.ShloMosaic Idealize.ShloMosaic.TcCoe Idealize.SL.Sem

/-- The idealized kernel ends at the common function of its arguments, the reference at the same function of its
    own; the arguments agree, so the results are equal. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Bridge.spec
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.ref_eq_spec,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
